-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S4194304x16 : Shape := ⟨2, ![4194304, 16]⟩
abbrev S16384x3 : Shape := ⟨2, ![16384, 3]⟩
abbrev S16384x16 : Shape := ⟨2, ![16384, 16]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S4194304x16, .f32⟩
  | .local _ .vmem, ⟨0, _⟩ => ⟨S16384x3, .f32⟩
  | .local _ .vmem, ⟨1, _⟩ => ⟨S16384x3, .f32⟩
  | .local _ .vmem, ⟨2, _⟩ => ⟨S16384x16, .f32⟩
  | .local _ .vmem, ⟨3, _⟩ => ⟨S16384x16, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x3_S16384x3_0_0 : ∀ a, (![0, 0] : Fin 2 → Nat) a + S16384x3.size a ≤ S16384x3.size a
  h_S16384x3 : 0 < S16384x3.numel
  slices_S16384x3_o0_0_S16384x1 : S16384x3.Slices ![0, 0] S16384x1
  slices_S16384x3_o0_1_S16384x1 : S16384x3.Slices ![0, 1] S16384x1
  slices_S16384x3_o0_2_S16384x1 : S16384x3.Slices ![0, 2] S16384x1
  concatenates_S16384x1_S16384x1_S16384x1_S16384x1_S16384x1_S16384x1_S16384x1_S16384x1_S16384x1_S16384x1_S16384x1_S16384x1_S16384x1_S16384x1_S16384x1_S16384x1_S16384x16_d1 : Shape.Concatenates [S16384x1, S16384x1, S16384x1, S16384x1, S16384x1, S16384x1, S16384x1, S16384x1, S16384x1, S16384x1, S16384x1, S16384x1, S16384x1, S16384x1, S16384x1, S16384x1] S16384x16 1
  inb_S16384x16_S16384x16_0_0 : ∀ a, (![0, 0] : Fin 2 → Nat) a + S16384x16.size a ≤ S16384x16.size a
  h_S16384x16 : 0 < S16384x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S4194304x3.size a
  hwx0_0 : ∀ i : grid0.Coords, EltTy.bits .f32 = 32 ∨ (Rect.block (s := S4194304x3) S16384x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x16.size a ≤ S4194304x16.size a
  hwx0_1 : ∀ i : grid0.Coords, EltTy.bits .f32 = 32 ∨ (Rect.block (s := S4194304x16) S16384x16.size (cc0_transform_1 i) (hinb0_1 i)).WholeWords (EltTy.packing .f32)

variable [Facts₀]

abbrev win0_0 : Pipeline.Window sig grid0 :=
  Pipeline.Window.ofSpec (Memref.whole main_arg0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S_ : Shape := ⟨0, ![]⟩
abbrev S4194304x1 : Shape := ⟨2, ![4194304, 1]⟩
abbrev S4194304 : Shape := ⟨1, ![4194304]⟩
abbrev S4194304x16 : Shape := ⟨2, ![4194304, 16]⟩

abbrev nBuf : Space → Nat
  | .hbm => 126
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S_, .f32⟩
  | .hbm, ⟨2, _⟩ => ⟨S4194304x3, .f32⟩
  | .hbm, ⟨3, _⟩ => ⟨S4194304x3, .f32⟩
  | .hbm, ⟨4, _⟩ => ⟨S_, .f32⟩
  | .hbm, ⟨5, _⟩ => ⟨S4194304x3, .f32⟩
  | .hbm, ⟨6, _⟩ => ⟨S4194304x3, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S_, .f32⟩
  | .hbm, ⟨31, _⟩ => ⟨S4194304, .f32⟩
  | .hbm, ⟨32, _⟩ => ⟨S4194304, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S_, .f32⟩
  | .hbm, ⟨42, _⟩ => ⟨S4194304, .f32⟩
  | .hbm, ⟨43, _⟩ => ⟨S4194304, .f32⟩
  | .hbm, ⟨44, _⟩ => ⟨S_, .f32⟩
  | .hbm, ⟨45, _⟩ => ⟨S4194304, .f32⟩
  | .hbm, ⟨46, _⟩ => ⟨S4194304, .f32⟩
  | .hbm, ⟨47, _⟩ => ⟨S4194304, .f32⟩
  | .hbm, ⟨48, _⟩ => ⟨S_, .f32⟩
  | .hbm, ⟨49, _⟩ => ⟨S4194304, .f32⟩
  | .hbm, ⟨50, _⟩ => ⟨S4194304, .f32⟩
  | .hbm, ⟨51, _⟩ => ⟨S_, .f32⟩
  | .hbm, ⟨52, _⟩ => ⟨S4194304, .f32⟩
  | .hbm, ⟨53, _⟩ => ⟨S4194304, .f32⟩
  | .hbm, ⟨54, _⟩ => ⟨S_, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S4194304, .f32⟩
  | .hbm, ⟨59, _⟩ => ⟨S_, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S_, .f32⟩
  | .hbm, ⟨64, _⟩ => ⟨S4194304, .f32⟩
  | .hbm, ⟨65, _⟩ => ⟨S4194304, .f32⟩
  | .hbm, ⟨66, _⟩ => ⟨S_, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304, .f32⟩
  | .hbm, ⟨71, _⟩ => ⟨S4194304, .f32⟩
  | .hbm, ⟨72, _⟩ => ⟨S_, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304, .f32⟩
  | .hbm, ⟨82, _⟩ => ⟨S_, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S4194304, .f32⟩
  | .hbm, ⟨87, _⟩ => ⟨S_, .f32⟩
  | .hbm, ⟨88, _⟩ => ⟨S4194304, .f32⟩
  | .hbm, ⟨89, _⟩ => ⟨S4194304, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S4194304, .f32⟩
  | .hbm, ⟨96, _⟩ => ⟨S_, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S_, .f32⟩
  | .hbm, ⟨102, _⟩ => ⟨S4194304, .f32⟩
  | .hbm, ⟨103, _⟩ => ⟨S4194304, .f32⟩
  | .hbm, ⟨104, _⟩ => ⟨S_, .f32⟩
  | .hbm, ⟨105, _⟩ => ⟨S4194304, .f32⟩
  | .hbm, ⟨106, _⟩ => ⟨S4194304, .f32⟩
  | .hbm, ⟨107, _⟩ => ⟨S4194304, .f32⟩
  | .hbm, ⟨108, _⟩ => ⟨S4194304, .f32⟩
  | .hbm, ⟨109, _⟩ => ⟨S4194304x1, .f32⟩
  | .hbm, ⟨110, _⟩ => ⟨S4194304x1, .f32⟩
  | .hbm, ⟨111, _⟩ => ⟨S4194304x1, .f32⟩
  | .hbm, ⟨112, _⟩ => ⟨S4194304x1, .f32⟩
  | .hbm, ⟨113, _⟩ => ⟨S4194304x1, .f32⟩
  | .hbm, ⟨114, _⟩ => ⟨S4194304x1, .f32⟩
  | .hbm, ⟨115, _⟩ => ⟨S4194304x1, .f32⟩
  | .hbm, ⟨116, _⟩ => ⟨S4194304x1, .f32⟩
  | .hbm, ⟨117, _⟩ => ⟨S4194304x1, .f32⟩
  | .hbm, ⟨118, _⟩ => ⟨S4194304x1, .f32⟩
  | .hbm, ⟨119, _⟩ => ⟨S4194304x1, .f32⟩
  | .hbm, ⟨120, _⟩ => ⟨S4194304x1, .f32⟩
  | .hbm, ⟨121, _⟩ => ⟨S4194304x1, .f32⟩
  | .hbm, ⟨122, _⟩ => ⟨S4194304x1, .f32⟩
  | .hbm, ⟨123, _⟩ => ⟨S4194304x1, .f32⟩
  | .hbm, ⟨124, _⟩ => ⟨S4194304x1, .f32⟩
  | .hbm, ⟨125, _⟩ => ⟨S4194304x16, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_14 : Ref sig .tc := ⟨.hbm, 63, rfl⟩
abbrev main_v47 : Ref sig .tc := ⟨.hbm, 64, rfl⟩
abbrev main_v48 : Ref sig .tc := ⟨.hbm, 65, rfl⟩
abbrev main_cst_15 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_16 : Ref sig .tc := ⟨.hbm, 72, rfl⟩
abbrev main_v54 : Ref sig .tc := ⟨.hbm, 73, rfl⟩
abbrev main_v55 : Ref sig .tc := ⟨.hbm, 74, rfl⟩
abbrev main_cst_17 : Ref sig .tc := ⟨.hbm, 75, rfl⟩
abbrev main_v56 : Ref sig .tc := ⟨.hbm, 76, rfl⟩
abbrev main_v57 : Ref sig .tc := ⟨.hbm, 77, rfl⟩
abbrev main_cst_18 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_19 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_20 : Ref sig .tc := ⟨.hbm, 87, rfl⟩
abbrev main_v65 : Ref sig .tc := ⟨.hbm, 88, rfl⟩
abbrev main_v66 : Ref sig .tc := ⟨.hbm, 89, rfl⟩
abbrev main_cst_21 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_22 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_23 : Ref sig .tc := ⟨.hbm, 101, rfl⟩
abbrev main_v76 : Ref sig .tc := ⟨.hbm, 102, rfl⟩
abbrev main_v77 : Ref sig .tc := ⟨.hbm, 103, rfl⟩
abbrev main_cst_24 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]

class Facts₀ : Prop where
  bcast_S_S4194304x3 : S_.BroadcastsInDim S4194304x3 (![] : Fin 0 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1

variable [Facts₀]

class Facts : Prop extends Facts₀ where

variable [Facts]
-- ==== Proof.SphBasis.lean ====
/-
  The value both programs compute, stated once: the real spherical-harmonics encoding of degree 4.

  A point is a row (a, b, c) of the input array, each coordinate meant to lie in [0, 1]. It is first
  rescaled to the direction (x, y, z) = ((a - 1/2)·2, (b - 1/2)·2, (c - 1/2)·2) in [-1, 1]³, and the
  row of the result holds the sixteen polynomials Y₀ … Y₁₅ of degree at most three in (x, y, z) that
  are the real spherical harmonics of orders 0 to 3 with their usual normalisation constants (each
  constant an f32 literal, kept here as the extended real its bit pattern denotes — the same pattern
  appears in both programs, so it is never evaluated).

  Everything is written on the extended reals with the association both programs use:
  a product `k · u · p` is `(k · u) · p` and a difference `p - q - r` is `(p - q) - r`.
  No algebraic law is needed to identify the two programs' results with this function, so
  nothing here asks the inputs to be finite.
-/
import Idealize.ShloMosaic.PureOps.Ideal
import Idealize.ShloMosaic.Lib.ValueIdx

noncomputable section

namespace Cert.SphBasis

open Idealize.ShloMosaic Idealize.ShloMosaic.ValueIdx

/-- The array of points: 4194304 rows of three coordinates. -/
abbrev Pts : Shape := ⟨2, ![4194304, 3]⟩
/-- The array of encodings: 4194304 rows of sixteen harmonics. -/
abbrev Enc : Shape := ⟨2, ![4194304, 16]⟩

/-- An f32 literal read on the extended reals: the number its bit pattern denotes. -/
abbrev lit (w : BitVec 32) : EReal := Ideal.ofBits .f32 w

/-- A coordinate of [0, 1] rescaled to [-1, 1]: `(a - 1/2) · 2`. -/
def rescale (a : EReal) : EReal := (a - lit 0x3F000000#32) * lit 0x40000000#32

/-- Harmonic number `n` (orders 0, 1, 2, 3 in turn: 1 + 3 + 5 + 7 polynomials) at the direction
    `(x, y, z)`. The literals are, in order of first use: 0.2820948 (Y₀), ∓0.4886025 (order 1),
    ±1.0925485, 0.3153916, 0.5462742 (order 2), -0.5900436, 2.8906114, -0.4570458, 0.3731763,
    1.4453057 (order 3), and the small integers 2, 3, 4. -/
def harmonic (n : Fin 16) (x y z : EReal) : EReal :=
  match n with
  | ⟨0, _⟩ => lit 0x3E906EBB#32
  | ⟨1, _⟩ => lit 0xBEFA2A1C#32 * y
  | ⟨2, _⟩ => lit 0x3EFA2A1C#32 * z
  | ⟨3, _⟩ => lit 0xBEFA2A1C#32 * x
  | ⟨4, _⟩ => lit 0x3F8BD8A1#32 * (x * y)
  | ⟨5, _⟩ => lit 0xBF8BD8A1#32 * (y * z)
  | ⟨6, _⟩ => lit 0x3EA17B01#32 * (lit 0x40000000#32 * (z * z) - x * x - y * y)
  | ⟨7, _⟩ => lit 0xBF8BD8A1#32 * (x * z)
  | ⟨8, _⟩ => lit 0x3F0BD8A1#32 * (x * x - y * y)
  | ⟨9, _⟩ => lit 0xBF170D19#32 * y * (lit 0x40400000#32 * (x * x) - y * y)
  | ⟨10, _⟩ => lit 0x4038FFC7#32 * (x * y) * z
  | ⟨11, _⟩ => lit 0xBEEA01E8#32 * y * (lit 0x40800000#32 * (z * z) - x * x - y * y)
  | ⟨12, _⟩ => lit 0x3EBF10F8#32 * z * (lit 0x40000000#32 * (z * z) - lit 0x40400000#32 * (x * x) - lit 0x40400000#32 * (y * y))
  | ⟨13, _⟩ => lit 0xBEEA01E8#32 * x * (lit 0x40800000#32 * (z * z) - x * x - y * y)
  | ⟨14, _⟩ => lit 0x3FB8FFC7#32 * z * (x * x - y * y)
  | ⟨15, _⟩ => lit 0xBF170D19#32 * x * (x * x - lit 0x40400000#32 * (y * y))
  | ⟨_ + 16, h⟩ => absurd h (Nat.not_lt.2 (Nat.le_add_left _ _))

/-- Harmonic `n` of a row given by its three raw coordinates: rescale, then evaluate. -/
def harmonicOfRow (n : Fin 16) (p : Fin 3 → EReal) : EReal :=
  harmonic n (rescale (p 0)) (rescale (p 1)) (rescale (p 2))

/-- The row a result index belongs to, and the harmonic it holds. -/
abbrev rowOf (i : Enc.Idx) : Fin 4194304 := ⟨(i 0).val, (i 0).isLt⟩
abbrev harmOf (i : Enc.Idx) : Fin 16 := ⟨(i 1).val, (i 1).isLt⟩

/-- THE ENCODING of a whole array of points: entry `(r, n)` is harmonic `n` of row `r`. -/
def encode (A : Pts.Idx → EReal) : Enc.Idx → EReal := fun i =>
  harmonicOfRow (harmOf i) (fun k => A (ix2 (rowOf i) k))

end Cert.SphBasis

end
-- ==== Proof.KernelBlock.lean ====
/-
  The kernel side: what the pipelined kernel leaves in the result array is the encoding of the
  argument array.

  The grid has 256 points; point `t` stages rows 16384·t … 16384·t + 16383 of the points (a block of
  16384 × 3) and writes back the same rows of the result (a block of 16384 × 16). Inside a block the
  body slices the three coordinate columns, rescales them, evaluates the sixteen harmonics as
  16384 × 1 columns and joins them side by side. So entry `(p, n)` of a block is harmonic `n` of
  row `p` of the staged block (`block_apply`); a block's row `p` at point `t` is row
  `16384·t + p` of the array (`flushed_eq`); and the 256 blocks tile the result (`cover`), so the
  whole array ends as `encode` of the argument (`final`, `run`).
-/
import proofs.«142427_j88450556494138_1_alg».proof.Proof.KernelIdealValue
import proofs.«142427_j88450556494138_1_alg».proof.Proof.SphBasis

noncomputable section

namespace Cert.KernelIdeal.Block

open Cert.KernelIdeal Cert.KernelIdeal.Gen Idealize.ShloMosaic Idealize.ShloMosaic.TcCoe Idealize.SL.Sem
open Idealize.ShloMosaic.Pipeline (Dat)
open Idealize.ShloMosaic.ValueIdx Cert.SphBasis

/-! ## One block -/

/-- The row of an index into one 16384 × 1 column. -/
abbrev crow (r : S16384x1.Idx) : Fin 16384 := ⟨(r 0).val, (r 0).isLt⟩

/-- Column `k` of the staged block, sliced out as a 16384 × 1 array, read at a row. -/
theorem slice_col0 (P : Vec Ideal S16384x3 .f32) (h : S16384x3.Slices ![0, 0] S16384x1) (r : S16384x1.Idx) :
    extractStridedSlice S16384x1 ![0, 0] P h r = P (ix2 (crow r) 0) :=
  extractStridedSlice_apply ![0, 0] P h r (ix2 (crow r) 0) (fun a => match a with
    | ⟨0, _⟩ => by show (r 0).val = 0 + (r 0).val; omega
    | ⟨1, _⟩ => by have h1 : (r 1).val < 1 := (r 1).isLt; show 0 = 0 + (r 1).val; omega)
theorem slice_col1 (P : Vec Ideal S16384x3 .f32) (h : S16384x3.Slices ![0, 1] S16384x1) (r : S16384x1.Idx) :
    extractStridedSlice S16384x1 ![0, 1] P h r = P (ix2 (crow r) 1) :=
  extractStridedSlice_apply ![0, 1] P h r (ix2 (crow r) 1) (fun a => match a with
    | ⟨0, _⟩ => by show (r 0).val = 0 + (r 0).val; omega
    | ⟨1, _⟩ => by have h1 : (r 1).val < 1 := (r 1).isLt; show 1 = 1 + (r 1).val; omega)
theorem slice_col2 (P : Vec Ideal S16384x3 .f32) (h : S16384x3.Slices ![0, 2] S16384x1) (r : S16384x1.Idx) :
    extractStridedSlice S16384x1 ![0, 2] P h r = P (ix2 (crow r) 2) :=
  extractStridedSlice_apply ![0, 2] P h r (ix2 (crow r) 2) (fun a => match a with
    | ⟨0, _⟩ => by show (r 0).val = 0 + (r 0).val; omega
    | ⟨1, _⟩ => by have h1 : (r 1).val < 1 := (r 1).isLt; show 2 = 2 + (r 1).val; omega)

/-- Operand `n` of the body's concatenation, at row `r`, is harmonic `n` of that row of the staged
    block: every operand is a tree of pointwise products and differences over the three sliced
    columns and splatted literals, so read at a row it is the same tree on the row's three numbers,
    which is how `harmonic` is written. -/
theorem operand_apply (P : Vec Ideal S16384x3 .f32) (n : Fin 16) (r : S16384x1.Idx) :
    ValueP.Cat1_0 P n r = harmonicOfRow n (fun k => P (ix2 (crow r) k)) := by
  have e0 := slice_col0 P slices_S16384x3_o0_0_S16384x1 r
  have e1 := slice_col1 P slices_S16384x3_o0_1_S16384x1 r
  have e2 := slice_col2 P slices_S16384x3_o0_2_S16384x1 r
  fin_cases n <;>
  · dsimp only [ValueP.Cat1_0]
    simp only [k0_pay9, mulf_apply, subf_apply, broadcast_apply, e0, e1, e2]
    rfl

theorem zero_offsets : (![0, 0] : Fin 2 → Nat) = fun _ => 0 := funext fun a => by fin_cases a <;> rfl

/-- WHAT THE BODY LEAVES in the result's staging buffer, from the staged block `P`: entry `(p, n)`
    is harmonic `n` of row `p` of `P` (the join picks operand `n` at row `p`). -/
theorem block_apply (P : Vec Ideal S16384x3 .f32) (y : S16384x16.Idx) :
    out0_1 P y = harmonicOfRow ⟨(y 1).val, (y 1).isLt⟩ (fun k => P (ix2 ⟨(y 0).val, (y 0).isLt⟩ k)) := by
  unfold out0_1
  refine (ValueP.canon1_eq (F := Ideal) (View.ld P r0_0) y).trans ?_
  rw [View.ld_unit_zero (S := S16384x3) zero_offsets]
  exact operand_apply P (ValueP.csel1_0 y) (ValueP.ix1_0 y)

/-! ## From blocks to the array -/

variable (m : (ℓ : Loc nD τ sig) → Buf (Elt Ideal) ℓ) (ρ : Dev nD → PrngReg)

/-- The argument array as the region finds it, at its literal type. -/
abbrev pts (c : Dev nD) : Vec Ideal S4194304x3 .f32 := V m c main_arg0

/-- The printed index maps over the 256 grid points: both windows sit at block `t` along the rows
    and at block 0 along the (whole) second axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the encoding of the argument array: row `p` of the
    staged block is row `16384·t + p` of the argument, and entry `(p, n)` of the result's block is
    entry `(16384·t + p, n)` of the result. -/
theorem flushed_eq (c : Dev nD) (t : Fin cfg0.N) :
    (dats m 0 c).flushed 1 t = ((cfg0.win 1).blk t).view.read (Elt Ideal) (encode (pts m c)) := by
  rw [ValueP.flushed1]
  obtain ⟨a0, a1, b0, b1⟩ := idx_facts t
  funext j
  show out0_1 (iblk m c 0 t) j = encode (pts m c) (((cfg0.win 1).blk t).view.emb j)
  rw [block_apply]
  have hcol : harmOf (((cfg0.win 1).blk t).view.emb j) = ⟨(j 1).val, (j 1).isLt⟩ :=
    Fin.ext (by show win0_1.index t (1 : Fin 2) * 16 + 1 * (j 1).val = (j 1).val; omega)
  have hrow : ∀ k : Fin 3, iblk m c 0 t (ix2 ⟨(j 0).val, (j 0).isLt⟩ k)
      = pts m c (ix2 (rowOf (((cfg0.win 1).blk t).view.emb j)) k) := by
    intro k
    show V m c main_arg0 (((cfg0.win 0).blk t).view.emb (ix2 ⟨(j 0).val, (j 0).isLt⟩ k)) = V m c main_arg0 _
    refine congrArg _ (funext fun a => Fin.ext ?_)
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 3 + 1 * k.val = k.val; omega
  show _ = harmonicOfRow (harmOf (((cfg0.win 1).blk t).view.emb j)) (fun k => pts m c (ix2 (rowOf (((cfg0.win 1).blk t).view.emb j)) k))
  rw [hcol]
  exact congrArg _ (funext hrow)

/-- An index of the result is in point `t`'s block iff each coordinate is in the block's range. -/
theorem mem_blk (t : Fin cfg0.N) (i : S4194304x16.Idx) :
    i ∈ ((cfg0.win 1).blk t).view.set ↔ ∀ a : Fin 2, win0_1.index t a * S16384x16.size a ≤ (i a).val ∧ (i a).val < win0_1.index t a * S16384x16.size a + S16384x16.size a := by
  show i ∈ ((View.whole main_v0).slice (win0_1.rect t)).set ↔ _
  rw [View.set_slice_whole, Rect.mem_set_unit]
  exact Iff.rfl

/-- The 256 blocks tile the result: row `r` lies in the block of point `r / 16384`. -/
theorem cover (i : S4194304x16.Idx) :
    ∃ t : Fin cfg0.N, (cfg0.win 1).flush t = true ∧ i ∈ ((cfg0.win 1).blk t).view.set := by
  have hi0 : (i 0).val < 4194304 := (i 0).isLt
  have hi1 : (i 1).val < 16 := (i 1).isLt
  have ht : (i 0).val / 16384 < 256 := by omega
  obtain ⟨a0, a1, b0, b1⟩ := idx_facts ⟨(i 0).val / 16384, ht⟩
  refine ⟨⟨(i 0).val / 16384, ht⟩, flush0_1 _, ?_⟩
  rw [mem_blk]
  intro a
  match a with
  | ⟨0, _⟩ =>
    show win0_1.index ⟨(i 0).val / 16384, ht⟩ (0 : Fin 2) * 16384 ≤ (i 0).val ∧ (i 0).val < win0_1.index ⟨(i 0).val / 16384, ht⟩ (0 : Fin 2) * 16384 + 16384
    rw [b0]; show (i 0).val / 16384 * 16384 ≤ (i 0).val ∧ (i 0).val < (i 0).val / 16384 * 16384 + 16384; omega
  | ⟨1, _⟩ =>
    show win0_1.index ⟨(i 0).val / 16384, ht⟩ (1 : Fin 2) * 16 ≤ (i 1).val ∧ (i 1).val < win0_1.index ⟨(i 0).val / 16384, ht⟩ (1 : Fin 2) * 16 + 16
    rw [b1]; omega

/-- THE RESULT ARRAY after the run is the encoding of the argument array. -/
theorem final (c : Dev nD) : (dats m 0 c).arrAt 1 cfg0.N = encode (pts m c) :=
  (dats m 0 c).arrAt_eq_of_cover 1 _ (fun t _ => flushed_eq m c t) cover

/-- The kernel's run, read: every weakly fair execution ends with the result at the encoding of
    the argument as launched, the argument unchanged. -/
theorem run : θ_run defs (onTc (τ := τ) (main (F := Ideal))) ⟨m, fun _ => 0, ρ⟩ fun r => ∀ c : Dev nD,
      r.2.mem ((c : Thread nD τ).loc main_v0) = encode (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.Block

end
-- ==== Proof.RefColumns.lean ====
/-
  The reference side: the array the host program returns is the encoding of its argument.

  The reference rescales the whole 4194304 × 3 array at once, slices its three columns and
  reshapes each to a vector of 4194304 numbers `x`, `y`, `z`; computes the sixteen harmonics as
  vectors by pointwise products and differences with splatted literals; gives each vector a
  trailing unit axis; and joins the sixteen 4194304 × 1 columns side by side. Read at an index:
  entry `(r, n)` of the join is column `n` at row `r` (`stacked`), and column `n` at row `r` is
  harmonic `n` of row `r` of the argument (`column_apply`) — each pointwise stage read at the same
  row, each slice-then-reshape at the row's coordinate `k` (`coord_x`, `coord_y`, `coord_z`).
-/
import proofs.«142427_j88450556494138_1_alg».proof.Proof.Gen.ReferenceIdeal.Read
import proofs.«142427_j88450556494138_1_alg».proof.Proof.SphBasis

noncomputable section

namespace Cert.ReferenceIdeal.Columns

open Cert.ReferenceIdeal Cert.ReferenceIdeal.Gen Cert.ReferenceIdeal.Read Idealize.ShloMosaic Idealize.ShloMosaic.TcCoe Idealize.SL.Sem
open Idealize.ShloMosaic.ValueIdx Cert.SphBasis

/-- The row of an index into a 4194304 × 1 column, and of an index into a vector of 4194304. -/
abbrev crow (r : S4194304x1.Idx) : Fin 4194304 := ⟨(r 0).val, (r 0).isLt⟩
abbrev vrow (j : S4194304.Idx) : Fin 4194304 := ⟨(j 0).val, (j 0).isLt⟩

/-- Entry `j` of the vector `x` comes from coordinate 0 of row `j` of the array: the reshape
    [4194304, 1] → [4194304] reads row `j / 1 = j`, the slice column `0 + 0`. Likewise `y` and `z`
    from coordinates 1 and 2. -/
theorem coord_x (j : S4194304.Idx) : idx_main_v4 (idx_main_v5 j) = ix2 (vrow j) 0 := by
  funext a; match a with
  | ⟨0, _⟩ => exact Fin.ext (Nat.div_one _)
  | ⟨1, _⟩ => rfl
theorem coord_y (j : S4194304.Idx) : idx_main_v6 (idx_main_v7 j) = ix2 (vrow j) 1 := by
  funext a; match a with
  | ⟨0, _⟩ => exact Fin.ext (Nat.div_one _)
  | ⟨1, _⟩ => rfl
theorem coord_z (j : S4194304.Idx) : idx_main_v8 (idx_main_v9 j) = ix2 (vrow j) 2 := by
  funext a; match a with
  | ⟨0, _⟩ => exact Fin.ext (Nat.div_one _)
  | ⟨1, _⟩ => rfl

/-- The sixteen columns the reference joins, in order (column 0 does not depend on the argument). -/
abbrev column (A : (⟨S4194304x3, .f32⟩ : BufTy).Contents (Elt Ideal)) :
    Fin 16 → (⟨S4194304x1, .f32⟩ : BufTy).Contents (Elt Ideal) := fun n => match n with
  | ⟨0, _⟩ => val_main_v82 (F := Ideal)
  | ⟨1, _⟩ => val_main_v83 (F := Ideal) A
  | ⟨2, _⟩ => val_main_v84 (F := Ideal) A
  | ⟨3, _⟩ => val_main_v85 (F := Ideal) A
  | ⟨4, _⟩ => val_main_v86 (F := Ideal) A
  | ⟨5, _⟩ => val_main_v87 (F := Ideal) A
  | ⟨6, _⟩ => val_main_v88 (F := Ideal) A
  | ⟨7, _⟩ => val_main_v89 (F := Ideal) A
  | ⟨8, _⟩ => val_main_v90 (F := Ideal) A
  | ⟨9, _⟩ => val_main_v91 (F := Ideal) A
  | ⟨10, _⟩ => val_main_v92 (F := Ideal) A
  | ⟨11, _⟩ => val_main_v93 (F := Ideal) A
  | ⟨12, _⟩ => val_main_v94 (F := Ideal) A
  | ⟨13, _⟩ => val_main_v95 (F := Ideal) A
  | ⟨14, _⟩ => val_main_v96 (F := Ideal) A
  | ⟨15, _⟩ => val_main_v97 (F := Ideal) A
  | ⟨_ + 16, h⟩ => absurd h (Nat.not_lt.2 (Nat.le_add_left _ _))

/-- Column `n` at row `r` is harmonic `n` of row `r` of the argument. Every stage between the
    argument and a column is pointwise, a splat, a slice, a reshape or a unit-axis broadcast, so the
    stage lemmas carry the index down to the argument's entries at `coord_x` / `_y` / `_z`, and what
    is left is the tree of products and differences that `harmonic` spells. -/
theorem column_apply (A : (⟨S4194304x3, .f32⟩ : BufTy).Contents (Elt Ideal)) (n : Fin 16) (r : S4194304x1.Idx) :
    column A n r = harmonicOfRow n (fun k => A (ix2 (crow r) k)) := by
  fin_cases n <;>
  · dsimp only [column]
    simp only [val_main_cst_apply,
      val_main_v0_apply,
      val_main_v1_apply,
      val_main_cst_0_apply,
      val_main_v2_apply,
      val_main_v3_apply,
      val_main_v4_apply,
      val_main_v5_apply,
      val_main_v6_apply,
      val_main_v7_apply,
      val_main_v8_apply,
      val_main_v9_apply,
      val_main_cst_1_apply,
      val_main_v10_apply,
      val_main_cst_2_apply,
      val_main_v11_apply,
      val_main_v12_apply,
      val_main_cst_3_apply,
      val_main_v13_apply,
      val_main_v14_apply,
      val_main_cst_4_apply,
      val_main_v15_apply,
      val_main_v16_apply,
      val_main_v17_apply,
      val_main_v18_apply,
      val_main_v19_apply,
      val_main_v20_apply,
      val_main_v21_apply,
      val_main_v22_apply,
      val_main_cst_5_apply,
      val_main_v23_apply,
      val_main_v24_apply,
      val_main_cst_6_apply,
      val_main_v25_apply,
      val_main_v26_apply,
      val_main_cst_7_apply,
      val_main_v27_apply,
      val_main_v28_apply,
      val_main_v29_apply,
      val_main_v30_apply,
      val_main_cst_8_apply,
      val_main_v31_apply,
      val_main_v32_apply,
      val_main_cst_9_apply,
      val_main_v33_apply,
      val_main_v34_apply,
      val_main_v35_apply,
      val_main_cst_10_apply,
      val_main_v36_apply,
      val_main_v37_apply,
      val_main_cst_11_apply,
      val_main_v38_apply,
      val_main_v39_apply,
      val_main_cst_12_apply,
      val_main_v40_apply,
      val_main_v41_apply,
      val_main_v42_apply,
      val_main_v43_apply,
      val_main_cst_13_apply,
      val_main_v44_apply,
      val_main_v45_apply,
      val_main_v46_apply,
      val_main_cst_14_apply,
      val_main_v47_apply,
      val_main_v48_apply,
      val_main_cst_15_apply,
      val_main_v49_apply,
      val_main_v50_apply,
      val_main_v51_apply,
      val_main_v52_apply,
      val_main_v53_apply,
      val_main_cst_16_apply,
      val_main_v54_apply,
      val_main_v55_apply,
      val_main_cst_17_apply,
      val_main_v56_apply,
      val_main_v57_apply,
      val_main_cst_18_apply,
      val_main_v58_apply,
      val_main_v59_apply,
      val_main_v60_apply,
      val_main_cst_19_apply,
      val_main_v61_apply,
      val_main_v62_apply,
      val_main_v63_apply,
      val_main_v64_apply,
      val_main_cst_20_apply,
      val_main_v65_apply,
      val_main_v66_apply,
      val_main_cst_21_apply,
      val_main_v67_apply,
      val_main_v68_apply,
      val_main_v69_apply,
      val_main_v70_apply,
      val_main_v71_apply,
      val_main_cst_22_apply,
      val_main_v72_apply,
      val_main_v73_apply,
      val_main_v74_apply,
      val_main_v75_apply,
      val_main_cst_23_apply,
      val_main_v76_apply,
      val_main_v77_apply,
      val_main_cst_24_apply,
      val_main_v78_apply,
      val_main_v79_apply,
      val_main_v80_apply,
      val_main_v81_apply,
      val_main_v82_apply,
      val_main_v83_apply,
      val_main_v84_apply,
      val_main_v85_apply,
      val_main_v86_apply,
      val_main_v87_apply,
      val_main_v88_apply,
      val_main_v89_apply,
      val_main_v90_apply,
      val_main_v91_apply,
      val_main_v92_apply,
      val_main_v93_apply,
      val_main_v94_apply,
      val_main_v95_apply,
      val_main_v96_apply,
      val_main_v97_apply,
      coord_x, coord_y, coord_z]
    rfl

/-- THE REFERENCE'S RESULT is the encoding of its argument: entry `(r, n)` of the join along the
    second axis of sixteen 4194304 × 1 columns is column `n` at `(r, 0)`. -/
theorem stacked (A : (⟨S4194304x3, .f32⟩ : BufTy).Contents (Elt Ideal)) :
    val_main_v98 (F := Ideal) A = encode A := by
  funext i
  unfold val_main_v98
  show concatenate S4194304x16 1 (List.ofFn fun n : Fin 16 => (⟨S4194304x1, column A n⟩ : (s : Shape) × (s.Idx → _))) _ i = _
  refine (concatenate_ofFn_apply (t := S4194304x16) (s₁ := S4194304x1) (1 : Fin 2) (column A) _ rfl 1 rfl i (harmOf i)
    (by show (i 1).val / 1 = (i 1).val; omega) (ix2 (rowOf i) 0) (by show 0 = (i 1).val % 1; omega)
    (fun b hb => by match b with | ⟨0, _⟩ => rfl | ⟨1, _⟩ => exact absurd rfl hb)).trans ?_
  exact column_apply A (harmOf i) (ix2 (rowOf i) 0)

end Cert.ReferenceIdeal.Columns

end
-- ==== Proof.lean ====
/-
  The certificate of the spherical-harmonics encoding kernel against its jnp reference.

  Both programs map an array of 4194304 points (a, b, c) to the array of their sixteen real
  spherical harmonics of orders 0 to 3 at the direction ((a - 1/2)·2, (b - 1/2)·2, (c - 1/2)·2).
  The kernel does it in 256 blocks of 16384 rows, joining sixteen 16384 × 1 columns per block; the
  reference does it on whole vectors and joins sixteen 4194304 × 1 columns. Read on the extended
  reals both arrays are, entry by entry, the one function `Cert.SphBasis.encode` of the argument:
  the literals are the same bit patterns, and every product and difference is associated the same
  way, so no law of arithmetic — and hence no finiteness of the inputs — is used.

  * `Cert.KernelIdeal.Block.run`: the kernel's result array is `encode` of its argument.
  * `Cert.ReferenceIdeal.Columns.stacked`: the reference's result term is `encode` of its argument.
  * The three frames are the generated ones (the reference's is its run with the result dropped);
    the idealization rewrote nothing, so `preserves` is `True`.
-/
import proofs.«142427_j88450556494138_1_alg».proof.Defs
import proofs.«142427_j88450556494138_1_alg».proof.Proof.Gen.Kernel
import proofs.«142427_j88450556494138_1_alg».proof.Proof.Gen.Kernel.Skeleton
import proofs.«142427_j88450556494138_1_alg».proof.Proof.Gen.Kernel.Launch
import proofs.«142427_j88450556494138_1_alg».proof.Proof.Gen.Kernel.Points
import proofs.«142427_j88450556494138_1_alg».proof.Proof.Gen.Kernel.Frame
import proofs.«142427_j88450556494138_1_alg».proof.Proof.Gen.KernelIdeal
import proofs.«142427_j88450556494138_1_alg».proof.Proof.Gen.KernelIdeal.Skeleton
import proofs.«142427_j88450556494138_1_alg».proof.Proof.Gen.KernelIdeal.Launch
import proofs.«142427_j88450556494138_1_alg».proof.Proof.Gen.KernelIdeal.Points
import proofs.«142427_j88450556494138_1_alg».proof.Proof.Gen.KernelIdeal.Frame
import proofs.«142427_j88450556494138_1_alg».proof.Proof.Gen.ReferenceIdeal
import proofs.«142427_j88450556494138_1_alg».proof.Proof.Gen.Pre_finite_inputs
import proofs.«142427_j88450556494138_1_alg».proof.Proof.Gen.ReferenceIdeal.Run
import proofs.«142427_j88450556494138_1_alg».proof.Proof.Gen.ReferenceIdeal.Read
import proofs.«142427_j88450556494138_1_alg».proof.Proof.KernelIdealValue
import proofs.«142427_j88450556494138_1_alg».proof.Proof.SphBasis
import proofs.«142427_j88450556494138_1_alg».proof.Proof.KernelBlock
import proofs.«142427_j88450556494138_1_alg».proof.Proof.RefColumns
import Idealize.ShloMosaic.Adequacy
import Idealize.ShloMosaic.Init

noncomputable section

namespace Cert.Proof

open Idealize.ShloMosaic Idealize.SL.Sem

/-- The word-level kernel runs and leaves its argument unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its argument unchanged: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the points, both programs end with the encoding of those points:
    the kernel's array by `Block.run`, the reference's by its run and `Columns.stacked`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.SphBasis.encode (m ((c.tc : Thread Cert.KernelIdeal.nD Cert.KernelIdeal.τ).loc Cert.KernelIdeal.main_arg0)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, Cert.ReferenceIdeal.Columns.stacked, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
